-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x256 .f32) (main_arg1 : IVec S2x600000 32) (main_arg2 : FVec F S256x128 .f32) (main_arg3 : FVec F S128 .f32) (main_arg4 : FVec F S256x128 .f32) (main_arg5 : FVec F S128x1 .f32) (main_arg6 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S50000x1 : Shape := ⟨2, ![50000, 1]⟩
abbrev S1x128 : Shape := ⟨2, ![1, 128]⟩
abbrev S1x1 : Shape := ⟨2, ![1, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S50000 : Shape := ⟨1, ![50000]⟩

abbrev nBuf : Space → Nat
  | .hbm => 35
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128x1, .f32⟩
  | .hbm, ⟨6, _⟩ => ⟨S1, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x256, .f32⟩
  | .hbm, ⟨20, _⟩ => ⟨S_, .f32⟩
  | .hbm, ⟨21, _⟩ => ⟨S50000x256, .f32⟩
  | .hbm, ⟨22, _⟩ => ⟨S600000x1, .i32⟩
  | .hbm, ⟨23, _⟩ => ⟨S50000x256, .f32⟩
  | .hbm, ⟨24, _⟩ => ⟨S_, .f32⟩
  | .hbm, ⟨25, _⟩ => ⟨S600000x1, .f32⟩
  | .hbm, ⟨26, _⟩ => ⟨S_, .f32⟩
  | .hbm, ⟨27, _⟩ => ⟨S50000x1, .f32⟩
  | .hbm, ⟨28, _⟩ => ⟨S600000x1, .i32⟩
  | .hbm, ⟨29, _⟩ => ⟨S50000x1, .f32⟩
  | .hbm, ⟨30, _⟩ => ⟨S1x128, .f32⟩
  | .hbm, ⟨31, _⟩ => ⟨S1x1, .f32⟩
  | .hbm, ⟨32, _⟩ => ⟨S50000x128, .f32⟩
  | .hbm, ⟨33, _⟩ => ⟨S50000x1, .f32⟩
  | .hbm, ⟨34, _⟩ => ⟨S50000, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x128, .f32⟩
  | .local _ .vmem, ⟨7, _⟩ => ⟨S256x128, .f32⟩
  | .local _ .vmem, ⟨8, _⟩ => ⟨S128x1, .f32⟩
  | .local _ .vmem, ⟨9, _⟩ => ⟨S1x128, .f32⟩
  | .local _ .vmem, ⟨10, _⟩ => ⟨S1x1, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x256 : S_.BroadcastsInDim S50000x256 (![] : Fin 0 → Fin S50000x256.rank)
  bcast_S_S600000x1 : S_.BroadcastsInDim S600000x1 (![] : Fin 0 → Fin S600000x1.rank)
  bcast_S_S50000x1 : S_.BroadcastsInDim S50000x1 (![] : Fin 0 → Fin S50000x1.rank)
  shapeCasts_S128_S1x128 : S128.ShapeCasts S1x128
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S50000x1_S50000 : S50000x1.ShapeCasts S50000
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  scatter_S50000x1_S600000x1_S600000x1_1_0_0_1_wf : ScatterDims.WF S50000x1 S600000x1 S600000x1 [1] [0] [0] 1
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S50000x1.size a
  hwx0_9 : ∀ i : grid0.Coords, EltTy.bits .f32 = 32 ∨ (Rect.block (s := S50000x1) S2000x1.size (cc0_transform_9 i) (hinb0_9 i)).WholeWords (EltTy.packing .f32)

variable [Facts₀]

def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v20_1) S2000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S50000x1 : Shape := ⟨2, ![50000, 1]⟩
abbrev S50000x128 : Shape := ⟨2, ![50000, 128]⟩
abbrev S1x128 : Shape := ⟨2, ![1, 128]⟩
abbrev S1x1 : Shape := ⟨2, ![1, 1]⟩
abbrev S50000 : Shape := ⟨1, ![50000]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128x1, .f32⟩
  | .hbm, ⟨6, _⟩ => ⟨S1, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x256, .f32⟩
  | .hbm, ⟨20, _⟩ => ⟨S_, .f32⟩
  | .hbm, ⟨21, _⟩ => ⟨S50000x256, .f32⟩
  | .hbm, ⟨22, _⟩ => ⟨S600000x1, .i32⟩
  | .hbm, ⟨23, _⟩ => ⟨S50000x256, .f32⟩
  | .hbm, ⟨24, _⟩ => ⟨S_, .f32⟩
  | .hbm, ⟨25, _⟩ => ⟨S600000x1, .f32⟩
  | .hbm, ⟨26, _⟩ => ⟨S_, .f32⟩
  | .hbm, ⟨27, _⟩ => ⟨S50000x1, .f32⟩
  | .hbm, ⟨28, _⟩ => ⟨S600000x1, .i32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x1, .f32⟩
  | .hbm, ⟨42, _⟩ => ⟨S1x1, .f32⟩
  | .hbm, ⟨43, _⟩ => ⟨S50000x1, .f32⟩
  | .hbm, ⟨44, _⟩ => ⟨S50000x1, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x256 : S_.BroadcastsInDim S50000x256 (![] : Fin 0 → Fin S50000x256.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  scatter_S50000x1_S600000x1_S600000x1_1_0_0_1_wf : ScatterDims.WF S50000x1 S600000x1 S600000x1 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.NodeMath.lean ====
/-
  The mathematics of one node of a mean-aggregating graph layer with a sigmoid head, over the extended reals.
  A node has a row of summed neighbour features `aggr`, its neighbour count `cnt`, and its own feature row `xr`.
  Its hidden feature in one output column, with weight columns `wl`, `wr` and bias `b`, is
      Σ_k (aggr k / max cnt 1) · wl k  +  Σ_k xr k · wr k  +  b,
  and its score is the logistic of  Σ_j h j · wfc j + bfc  over the 128 hidden features.
  One program adds the bias after both products, the other between them: addition on the extended reals is
  commutative and associative (`add_right_comm`), with no finiteness needed. One program applies the logistic as
  one operation, the other spells it 1 / (1 + e^(-z)) with the literal 1.0: the same function, the literal being 1.
  `hiddenAll` and `scoreAll` state the same for all 50000 nodes at once, as functions of whole arrays.
-/
import Idealize.ShloMosaic.PureOps.Ideal
import Idealize.ShloMosaic.PureOps.Ideal.Laws
import Idealize.ShloMosaic.Lib.IdealHost
import Idealize.ShloMosaic.Lib.ValueIdx

noncomputable section

namespace Cert.NodeMath

open Idealize.ShloMosaic Idealize.ShloMosaic.ValueIdx

/-- The f32 word of 1.0 as an extended real. Both programs clamp the neighbour count below by this same word, so
    there it is never evaluated. -/
abbrev one32 : EReal := Ideal.ofBits .f32 0x3F800000#32

/-- The mean of the neighbours' feature `k`: the sum divided by the count clamped below by one. -/
def meanAt (aggr : Fin 256 → EReal) (cnt : EReal) (k : Fin 256) : EReal := Ideal.div (aggr k) (max cnt one32)

/-- One hidden feature of one node: the neighbours' mean through `wl`, the node's own row through `wr`, the bias last. -/
def hiddenAt (aggr xr : Fin 256 → EReal) (cnt : EReal) (wl wr : Fin 256 → EReal) (b : EReal) : EReal :=
  ((∑ k : Fin 256, meanAt aggr cnt k * wl k) + ∑ k : Fin 256, xr k * wr k) + b

/-- With the bias added between the two products instead: the same extended real. -/
theorem hiddenAt_bias_between (aggr xr : Fin 256 → EReal) (cnt : EReal) (wl wr : Fin 256 → EReal) (b : EReal) :
    ((∑ k : Fin 256, meanAt aggr cnt k * wl k) + b) + ∑ k : Fin 256, xr k * wr k = hiddenAt aggr xr cnt wl wr b :=
  add_right_comm _ _ _

/-- The score of one node: the logistic of its hidden features through `wfc`, plus the head's bias. -/
def scoreAt (h wfc : Fin 128 → EReal) (b : EReal) : EReal := Ideal.logistic ((∑ j : Fin 128, h j * wfc j) + b)

/-- The logistic spelt as a quotient with the literal 1.0 is the logistic. -/
theorem scoreAt_spelt (h wfc : Fin 128 → EReal) (b : EReal) :
    Ideal.div one32 (one32 + Ideal.exp (-((∑ j : Fin 128, h j * wfc j) + b))) = scoreAt h wfc b := by
  unfold scoreAt Ideal.logistic one32
  rw [Ideal.ofBits_one_f32]

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-- Every node's hidden features: entry (r, j) is `hiddenAt` of row r of the summed-neighbour array and of the feature
    array, the count at r, column j of the two weight matrices, and entry j of the bias. -/
def hiddenAll (x agg : Arr2 50000 256) (cnt : Arr2 50000 1) (wl wr : Arr2 256 128) (bl : Arr1 128) : Arr2 50000 128 := fun i =>
  hiddenAt (fun k => agg (ix2 (i 0) k)) (fun k => x (ix2 (i 0) k)) (cnt (ix2 (i 0) (0 : Fin 1)))
    (fun k => wl (ix2 k (i 1))) (fun k => wr (ix2 k (i 1))) (bl (ix1 (i 1)))

/-- Every node's score, as a column: entry (r, 0) is `scoreAt` of row r of the hidden array. -/
def scoreAll (h : Arr2 50000 128) (wfc : Arr2 128 1) (bfc : Arr1 1) : Arr2 50000 1 := fun i =>
  scoreAt (fun j => h (ix2 (i 0) j)) (fun j => wfc (ix2 j (0 : Fin 1))) (bfc (ix1 (0 : Fin 1)))

/-- `hiddenAll` at node r, column j. -/
theorem hiddenAll_apply (x agg : Arr2 50000 256) (cnt : Arr2 50000 1) (wl wr : Arr2 256 128) (bl : Arr1 128) (r : Fin 50000) (j : Fin 128) :
    hiddenAll x agg cnt wl wr bl (ix2 r j)
      = hiddenAt (fun k => agg (ix2 r k)) (fun k => x (ix2 r k)) (cnt (ix2 r (0 : Fin 1))) (fun k => wl (ix2 k j)) (fun k => wr (ix2 k j)) (bl (ix1 j)) := rfl

/-- `scoreAll` at node r. -/
theorem scoreAll_apply (h : Arr2 50000 128) (wfc : Arr2 128 1) (bfc : Arr1 1) (r : Fin 50000) (u : Fin 1) :
    scoreAll h wfc bfc (ix2 r u) = scoreAt (fun j => h (ix2 r j)) (fun j => wfc (ix2 j (0 : Fin 1))) (bfc (ix1 (0 : Fin 1))) := rfl

end Cert.NodeMath

end
-- ==== Proof.KernelTile.lean ====
/-
  What the kernel body computes on one tile of 2000 nodes, read entry by entry at the ideal instance.
  The body's first stored value, at node `p` of the tile and hidden column `q`, is `NodeMath.hiddenAt` of row `p` of the
  tile's summed-neighbour block, row `p` of its own-feature block, the count at `p`, column `q` of the two weight
  matrices and entry `q` of the bias row; its second, at node `p`, is `NodeMath.scoreAt` of those 128 hidden entries, the
  head's weight column and the head's bias. A change of float format is the identity here, and a matrix product into
  a zero accumulator is the plain sum over the contracted index.
-/
import proofs.«102517_j69423851372893_1_alg».proof.Proof.Gen.KernelIdeal.Skeleton
import proofs.«102517_j69423851372893_1_alg».proof.Proof.NodeMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.NodeMath

/-! ## The two matrix products, entry by entry -/

theorem lhs_wide_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_wide_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_wide_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_wide_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000, 256] by [256, 128] product into the zero accumulator, at (p, q): the sum over the 256 contracted entries. -/
theorem matmul_wide_apply {φ₁ φ₂ : FTy} (l : FVec Ideal S2000x256 φ₁) (r : FVec Ideal S256x128 φ₂) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_wide_0 _ _
    | ⟨1, _⟩ => exact (lhs_wide_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_wide_0 _ _).trans hk
    | ⟨1, _⟩ => exact rhs_wide_1 _ _)
  rw [el, er]

theorem lhs_head_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_head_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs_head_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs_head_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A [2000, 128] by [128, 1] product into the zero accumulator, at (p, 0): the sum over the 128 contracted entries. -/
theorem matmul_head_apply {φ₁ φ₂ : FTy} (l : FVec Ideal S2000x128 φ₁) (r : FVec Ideal S128x1 φ₂) (p : Fin 2000) (u : Fin 1) :
    matmul dot_S2000x128_S128x1_S2000x1_1_0_0_1_n_n none l r (constant S2000x1 .f32 0x00000000#32) (ix2 p u)
      = ∑ k : Fin 128, l (ix2 p k) * r (ix2 k u) := by
  simp only [matmul]
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p u) ((ValueIdx.contrEquiv1 dot_S2000x128_S128x1_S2000x1_1_0_0_1_n_n 128 rfl rfl).symm k) = ix2 p k := funext fun a => Fin.ext (by
    match a with
    | ⟨0, _⟩ => exact lhs_head_0 _ _
    | ⟨1, _⟩ => exact (lhs_head_1 _ _).trans hk)
  have er : dot_S2000x128_S128x1_S2000x1_1_0_0_1_n_n.rhsIdx (ix2 p u) ((ValueIdx.contrEquiv1 dot_S2000x128_S128x1_S2000x1_1_0_0_1_n_n 128 rfl rfl).symm k) = ix2 k u := funext fun a => Fin.ext (by
    match a with
    | ⟨0, _⟩ => exact (rhs_head_0 _ _).trans hk
    | ⟨1, _⟩ => exact rhs_head_1 _ _)
  rw [el, er]

/-! ## Broadcasts of a column, a row and a single entry over the tile -/

/-- A [2000, 1] column broadcast along the 256 features reads, at (p, k), the column's entry at p. -/
theorem bcast_col_apply {α : Type} (v : S2000x1.Idx → α) (p : Fin 2000) (k : Fin 256) :
    broadcastTo S2000x256 v broadcasts_S2000x1_S2000x256 (ix2 p k) = v (ix2 p (0 : Fin 1)) := by
  refine broadcastTo_apply v broadcasts_S2000x1_S2000x256 (ix2 p k) (ix2 p (0 : Fin 1)) fun ax => ?_
  match ax with
  | ⟨0, _⟩ => rfl
  | ⟨1, _⟩ => rfl

/-- A [1, 128] row broadcast over the 2000 nodes reads, at (p, q), the row's entry at q. -/
theorem bcast_row_apply {α : Type} (v : S1x128.Idx → α) (p : Fin 2000) (q : Fin 128) :
    broadcastTo S2000x128 v broadcasts_S1x128_S2000x128 (ix2 p q) = v (ix2 (0 : Fin 1) q) :=
  broadcastTo_1b_ab_apply v broadcasts_S1x128_S2000x128 p q

/-- A [1, 1] entry broadcast over the 2000 nodes reads that entry. -/
theorem bcast_one_apply {α : Type} (v : S1x1.Idx → α) (p : Fin 2000) (u : Fin 1) :
    broadcastTo S2000x1 v broadcasts_S1x1_S2000x1 (ix2 p u) = v (ix2 (0 : Fin 1) (0 : Fin 1)) := by
  refine broadcastTo_apply v broadcasts_S1x1_S2000x1 (ix2 p u) (ix2 (0 : Fin 1) (0 : Fin 1)) fun ax => ?_
  match ax with
  | ⟨0, _⟩ => rfl
  | ⟨1, _⟩ => rfl

/-! ## The two stored values -/

/-- The hidden tile at node `p`, column `q`. -/
theorem hidden_tile_apply (v0 v1 : Vec Ideal S2000x256 .f32) (v3 : Vec Ideal S2000x1 .f32) (v11 v13 : Vec Ideal S256x128 .f32)
    (v18 : Vec Ideal S1x128 .f32) (p : Fin 2000) (q : Fin 128) :
    k0_pay1 (F := Ideal) v0 v1 v3 v11 v13 v18 (ix2 p q)
      = hiddenAt (fun k => v1 (ix2 p k)) (fun k => v0 (ix2 p k)) (v3 (ix2 p (0 : Fin 1))) (fun k => v11 (ix2 k q)) (fun k => v13 (ix2 k q)) (v18 (ix2 (0 : Fin 1) q)) := by
  unfold k0_pay1
  simp only [shapeCast_self]
  rw [addf_apply, addf_apply, matmul_wide_apply, matmul_wide_apply, bcast_row_apply]
  unfold hiddenAt meanAt
  simp only [truncf_apply, divf_apply, bcast_col_apply, maximumf_apply, broadcast_apply]
  rfl

/-- The score tile at node `p`. -/
theorem score_tile_apply (v0 v1 : Vec Ideal S2000x256 .f32) (v3 : Vec Ideal S2000x1 .f32) (v11 v13 : Vec Ideal S256x128 .f32)
    (v18 : Vec Ideal S1x128 .f32) (v23 : Vec Ideal S128x1 .f32) (v27 : Vec Ideal S1x1 .f32) (p : Fin 2000) (u : Fin 1) :
    k0_pay2 (F := Ideal) v0 v1 v3 v11 v13 v18 v23 v27 (ix2 p u)
      = scoreAt (fun j => k0_pay1 (F := Ideal) v0 v1 v3 v11 v13 v18 (ix2 p j)) (fun j => v23 (ix2 j (0 : Fin 1))) (v27 (ix2 (0 : Fin 1) (0 : Fin 1))) := by
  unfold k0_pay2
  simp only [shapeCast_self]
  show Ideal.logistic _ = _
  rw [addf_apply, matmul_head_apply, bcast_one_apply]
  unfold scoreAt
  have hu : u = 0 := Subsingleton.elim _ _
  subst hu
  simp only [truncf_apply]

end Cert.KernelIdeal.Tile

end
-- ==== Proof.KernelBlocks.lean ====
/-
  The blocks the pipelined region stages, read entry by entry off the arrays the region finds.
  The grid has 25 points; point t stages rows 2000·t … 2000·t + 1999 of the three node-indexed arrays (features,
  summed neighbour features, neighbour counts) and the whole of each weight and bias array.
-/
import proofs.«102517_j69423851372893_1_alg».proof.Proof.Gen.KernelIdeal.Frame
import proofs.«102517_j69423851372893_1_alg».proof.Proof.KernelTile
import Idealize.ShloMosaic.Lib.Pipeline.Value
import Idealize.ShloMosaic.Lib.StableHlo.Run
import Idealize.ShloMosaic.Lib.ValueLayout

set_option maxRecDepth 16384

noncomputable section

namespace Cert.KernelIdeal.Blocks

open Cert.KernelIdeal Cert.KernelIdeal.Gen Cert.KernelIdeal.Tile Idealize.ShloMosaic Idealize.ShloMosaic.TcCoe Idealize.SL.Sem
open Idealize.ShloMosaic.ValueIdx Cert.NodeMath
open Idealize.ShloMosaic.Pipeline (Dat)

variable (m : (ℓ : Loc nD τ sig) → Buf (Elt Ideal) ℓ) (ρ : Dev nD → PrngReg)

/-! ## The arrays as the region finds them -/

/-- The node features. -/
abbrev xArr (c : Dev nD) : Arr2 50000 256 := V m c main_arg0
/-- The neighbours' features summed into each node. -/
abbrev aggArr (c : Dev nD) : Arr2 50000 256 := V m c main_v13
/-- Each node's neighbour count, as a column. -/
abbrev cntArr (c : Dev nD) : Arr2 50000 1 := V m c main_v17
/-- The weights applied to the neighbours' mean. -/
abbrev wlArr (c : Dev nD) : Arr2 256 128 := V m c main_arg2
/-- The weights applied to the node's own features. -/
abbrev wrArr (c : Dev nD) : Arr2 256 128 := V m c main_arg4
/-- The head's weights. -/
abbrev wfcArr (c : Dev nD) : Arr2 128 1 := V m c main_arg5
/-- The hidden bias as the one-row array the region stages. -/
abbrev blRow (c : Dev nD) : Arr2 1 128 := V m c main_v18
/-- The head's bias as the one-entry array the region stages. -/
abbrev bfcCell (c : Dev nD) : Arr2 1 1 := V m c main_v19

theorem hz : (![0, 0] : Fin 2 → Nat) = fun _ => 0 := funext fun a => by fin_cases a <;> rfl

/-! ## Which block each window stages at a point -/

/-- The printed index maps over the 25 points: the node-indexed windows (inputs 0, 1, 2 and both outputs) are at block
    row t, the weight and bias windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 25 := by
  have h := t.isLt
  have e : cfg0.N = 25 := N_0
  omega

/-- Row p of the feature block at point t is row 2000·t + p of the feature array. -/
theorem xblk_apply (c : Dev nD) (t : Fin cfg0.N) (p : Fin 2000) (k : Fin 256) (r : Fin 50000) (hr : r.val = t.val * 2000 + p.val) :
    (iblk m c 0 t : Vec Ideal S2000x256 .f32) (ix2 p k) = xArr m c (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Row p of the neighbour-sum block at point t is row 2000·t + p of the neighbour-sum array. -/
theorem aggblk_apply (c : Dev nD) (t : Fin cfg0.N) (p : Fin 2000) (k : Fin 256) (r : Fin 50000) (hr : r.val = t.val * 2000 + p.val) :
    (iblk m c 1 t : Vec Ideal S2000x256 .f32) (ix2 p k) = aggArr m c (ix2 r k) := by
  obtain ⟨-, -, e0, e1, -⟩ := idx_facts t
  unfold iblk
  rw [View.read_apply]
  show V m c main_v13 _ = V m c main_v13 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 256 + 1 * k.val = k.val; rw [e1]; omega

/-- Entry p of the count block at point t is entry 2000·t + p of the count column. -/
theorem cntblk_apply (c : Dev nD) (t : Fin cfg0.N) (p : Fin 2000) (r : Fin 50000) (hr : r.val = t.val * 2000 + p.val) :
    (iblk m c 2 t : Vec Ideal S2000x1 .f32) (ix2 p (0 : Fin 1)) = cntArr m c (ix2 r (0 : Fin 1)) := by
  obtain ⟨-, -, -, -, e0, e1, -⟩ := idx_facts t
  unfold iblk
  rw [View.read_apply]
  show V m c main_v17 _ = V m c main_v17 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 1 + 1 * 0 = 0; rw [e1]

/-- The staged block of the first weight matrix is the matrix. -/
theorem wlblk_apply (c : Dev nD) (t : Fin cfg0.N) (k : Fin 256) (q : Fin 128) :
    (iblk m c 3 t : Vec Ideal S256x128 .f32) (ix2 k q) = wlArr m c (ix2 k q) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * q.val = q.val; rw [e1]; omega

/-- The staged block of the second weight matrix is the matrix. -/
theorem wrblk_apply (c : Dev nD) (t : Fin cfg0.N) (k : Fin 256) (q : Fin 128) :
    (iblk m c 4 t : Vec Ideal S256x128 .f32) (ix2 k q) = wrArr m c (ix2 k q) := by
  obtain ⟨-, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 256 + 1 * k.val = k.val; rw [e0]; omega
  | ⟨1, _⟩ => show win0_4.index t (1 : Fin 2) * 128 + 1 * q.val = q.val; rw [e1]; omega

/-- The staged block of the head's weights is the head's weights. -/
theorem wfcblk_apply (c : Dev nD) (t : Fin cfg0.N) (j : Fin 128) :
    (iblk m c 5 t : Vec Ideal S128x1 .f32) (ix2 j (0 : Fin 1)) = wfcArr m c (ix2 j (0 : Fin 1)) := by
  obtain ⟨-, -, -, -, -, -, -, -, -, -, e0, e1, -⟩ := idx_facts t
  unfold iblk
  rw [View.read_apply]
  show V m c main_arg5 _ = V m c main_arg5 _
  congr 1
  funext a
  apply Fin.ext
  match a with
  | ⟨0, _⟩ => show win0_5.index t (0 : Fin 2) * 128 + 1 * j.val = j.val; rw [e0]; omega
  | ⟨1, _⟩ => show win0_5.index t (1 : Fin 2) * 1 + 1 * 0 = 0; rw [e1]

/-- The staged block of the bias row is the bias row. -/
theorem blblk_apply (c : Dev nD) (t : Fin cfg0.N) (q : Fin 128) :
    (iblk m c 6 t : Vec Ideal S1x128 .f32) (ix2 (0 : Fin 1) q) = blRow m c (ix2 (0 : Fin 1) q) := by
  obtain ⟨-, -, -, -, -, -, -, -, -, -, -, -, e0, e1, -⟩ := idx_facts t
  unfold iblk
  rw [View.read_apply]
  show V m c main_v18 _ = V m c main_v18 _
  congr 1
  funext a
  apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

/-- The staged block of the head's bias is the head's bias. -/
theorem bfcblk_apply (c : Dev nD) (t : Fin cfg0.N) :
    (iblk m c 7 t : Vec Ideal S1x1 .f32) (ix2 (0 : Fin 1) (0 : Fin 1)) = bfcCell m c (ix2 (0 : Fin 1) (0 : Fin 1)) := by
  obtain ⟨-, -, -, -, -, -, -, -, -, -, -, -, -, -, e0, e1, -⟩ := idx_facts t
  unfold iblk
  rw [View.read_apply]
  show V m c main_v19 _ = V m c main_v19 _
  congr 1
  funext a
  apply Fin.ext
  match a with
  | ⟨0, _⟩ => show win0_7.index t (0 : Fin 2) * 1 + 1 * 0 = 0; rw [e0]
  | ⟨1, _⟩ => show win0_7.index t (1 : Fin 2) * 1 + 1 * 0 = 0; rw [e1]

end Cert.KernelIdeal.Blocks

end
-- ==== Proof.KernelNodes.lean ====
/-
  The kernel's two result arrays after the run, as `NodeMath.hiddenAll` and `NodeMath.scoreAll` of the argument arrays
  and of the scatter-added neighbour sums and counts (computed by the host lines before the region, never opened here).
  Point t of the 25 writes back rows 2000·t … 2000·t + 1999 of the hidden array and of the score column; what it
  writes is block t of `hiddenAll` (of `scoreAll`) of the whole arrays, because each staged block is the matching rows
  of its array. Every row r lies in the block of point r / 2000, so the arrays end holding those functions. The second
  result is the score column reshaped to a vector by the host line after the region.
-/
import proofs.«102517_j69423851372893_1_alg».proof.Proof.KernelBlocks

set_option maxRecDepth 16384

noncomputable section

namespace Cert.KernelIdeal.Nodes

open Cert.KernelIdeal Cert.KernelIdeal.Gen Cert.KernelIdeal.Tile Cert.KernelIdeal.Blocks
open Idealize.ShloMosaic Idealize.ShloMosaic.TcCoe Idealize.SL.Sem Idealize.ShloMosaic.StableHlo
open Idealize.ShloMosaic.ValueIdx Cert.NodeMath
open Idealize.ShloMosaic.Pipeline (Dat)

variable (m : (ℓ : Loc nD τ sig) → Buf (Elt Ideal) ℓ) (ρ : Dev nD → PrngReg)

/-- The hidden bias as a vector: the staged one-row array's row. -/
def blVec (c : Dev nD) : Arr1 128 := fun i => blRow m c (ix2 (0 : Fin 1) (i 0))
/-- The head's bias as a vector: the staged one-entry array's entry. -/
def bfcVec (c : Dev nD) : Arr1 1 := fun _ => bfcCell m c (ix2 (0 : Fin 1) (0 : Fin 1))

/-- The hidden array as a function of the arrays the region finds. -/
abbrev hiddenV (c : Dev nD) : Arr2 50000 128 :=
  hiddenAll (xArr m c) (aggArr m c) (cntArr m c) (wlArr m c) (wrArr m c) (blVec m c)
/-- The score column as a function of the arrays the region finds. -/
abbrev scoreV (c : Dev nD) : Arr2 50000 1 := scoreAll (hiddenV m c) (wfcArr m c) (bfcVec m c)

/-! ## What a point computes is a block of the whole-array functions -/

/-- Entry (p, q) of the hidden tile at point t is entry (2000·t + p, q) of `hiddenV`. -/
theorem hidden_block_apply (c : Dev nD) (t : Fin cfg0.N) (p : Fin 2000) (q : Fin 128) (r : Fin 50000) (hr : r.val = t.val * 2000 + p.val) :
    k0_pay1 (F := Ideal) (iblk m c 0 t) (iblk m c 1 t) (iblk m c 2 t) (iblk m c 3 t) (iblk m c 4 t) (iblk m c 6 t) (ix2 p q)
      = hiddenV m c (ix2 r q) := by
  refine (hidden_tile_apply (iblk m c 0 t) (iblk m c 1 t) (iblk m c 2 t) (iblk m c 3 t) (iblk m c 4 t) (iblk m c 6 t) p q).trans ?_
  refine Eq.trans ?_ (hiddenAll_apply (xArr m c) (aggArr m c) (cntArr m c) (wlArr m c) (wrArr m c) (blVec m c) r q).symm
  have h0 : (fun k => (iblk m c 0 t : Vec Ideal S2000x256 .f32) (ix2 p k)) = fun k => xArr m c (ix2 r k) :=
    funext fun k => xblk_apply m c t p k r hr
  have h1 : (fun k => (iblk m c 1 t : Vec Ideal S2000x256 .f32) (ix2 p k)) = fun k => aggArr m c (ix2 r k) :=
    funext fun k => aggblk_apply m c t p k r hr
  have h3 : (fun k => (iblk m c 3 t : Vec Ideal S256x128 .f32) (ix2 k q)) = fun k => wlArr m c (ix2 k q) :=
    funext fun k => wlblk_apply m c t k q
  have h4 : (fun k => (iblk m c 4 t : Vec Ideal S256x128 .f32) (ix2 k q)) = fun k => wrArr m c (ix2 k q) :=
    funext fun k => wrblk_apply m c t k q
  rw [h0, h1, h3, h4, cntblk_apply m c t p r hr, blblk_apply m c t q]
  rfl

/-- Entry p of the score tile at point t is entry 2000·t + p of `scoreV`. -/
theorem score_block_apply (c : Dev nD) (t : Fin cfg0.N) (p : Fin 2000) (u : Fin 1) (r : Fin 50000) (hr : r.val = t.val * 2000 + p.val) :
    k0_pay2 (F := Ideal) (iblk m c 0 t) (iblk m c 1 t) (iblk m c 2 t) (iblk m c 3 t) (iblk m c 4 t) (iblk m c 6 t) (iblk m c 5 t) (iblk m c 7 t) (ix2 p u)
      = scoreV m c (ix2 r u) := by
  refine (score_tile_apply (iblk m c 0 t) (iblk m c 1 t) (iblk m c 2 t) (iblk m c 3 t) (iblk m c 4 t) (iblk m c 6 t) (iblk m c 5 t) (iblk m c 7 t) p u).trans ?_
  refine Eq.trans ?_ (scoreAll_apply (hiddenV m c) (wfcArr m c) (bfcVec m c) r u).symm
  have hh : (fun j => k0_pay1 (F := Ideal) (iblk m c 0 t) (iblk m c 1 t) (iblk m c 2 t) (iblk m c 3 t) (iblk m c 4 t) (iblk m c 6 t) (ix2 p j))
      = fun j => hiddenV m c (ix2 r j) := funext fun j => hidden_block_apply m c t p j r hr
  have h5 : (fun j => (iblk m c 5 t : Vec Ideal S128x1 .f32) (ix2 j (0 : Fin 1))) = fun j => wfcArr m c (ix2 j (0 : Fin 1)) :=
    funext fun j => wfcblk_apply m c t j
  rw [hh, h5, bfcblk_apply m c t]
  rfl

/-- A tile whose row p is row 2000·t + p of a [50000, 128] array is block t of that array. -/
theorem block8_of_rows (t : Fin cfg0.N) (X : Vec Ideal S2000x128 .f32) (G : Arr2 50000 128)
    (h : ∀ (p : Fin 2000) (q : Fin 128) (r : Fin 50000), r.val = t.val * 2000 + p.val → X (ix2 p q) = G (ix2 r q)) :
    (cfg0.win 8).cut (grid0.coords t) X = ((cfg0.win 8).blk t).view.read (Elt Ideal) G := by
  funext j
  obtain ⟨p, q, rfl⟩ : ∃ (p : Fin 2000) (q : Fin 128), j = ix2 p q := ⟨j 0, j 1, eq_ix2 j⟩
  obtain ⟨-, -, -, -, -, -, -, -, -, -, -, -, -, -, -, -, e0, e1, -⟩ := idx_facts t
  have ht := t_lt t
  have hemb : ((cfg0.win 8).blk t).view.emb (ix2 p q) = ix2 (⟨t.val * 2000 + p.val, by omega⟩ : Fin 50000) q := by
    funext a
    apply Fin.ext
    match a with
    | ⟨0, _⟩ => show win0_8.index t (0 : Fin 2) * 2000 + 1 * p.val = t.val * 2000 + p.val; rw [e0]; omega
    | ⟨1, _⟩ => show win0_8.index t (1 : Fin 2) * 128 + 1 * q.val = q.val; rw [e1]; omega
  show X (ix2 p q) = G (((cfg0.win 8).blk t).view.emb (ix2 p q))
  rw [hemb]
  exact h p q _ rfl

/-- A tile whose entry p is entry 2000·t + p of a [50000, 1] column is block t of that column. -/
theorem block9_of_rows (t : Fin cfg0.N) (X : Vec Ideal S2000x1 .f32) (G : Arr2 50000 1)
    (h : ∀ (p : Fin 2000) (u : Fin 1) (r : Fin 50000), r.val = t.val * 2000 + p.val → X (ix2 p u) = G (ix2 r u)) :
    (cfg0.win 9).cut (grid0.coords t) X = ((cfg0.win 9).blk t).view.read (Elt Ideal) G := by
  funext j
  obtain ⟨p, u, rfl⟩ : ∃ (p : Fin 2000) (u : Fin 1), j = ix2 p u := ⟨j 0, j 1, eq_ix2 j⟩
  obtain ⟨-, -, -, -, -, -, -, -, -, -, -, -, -, -, -, -, -, -, e0, e1⟩ := idx_facts t
  have ht := t_lt t
  have hemb : ((cfg0.win 9).blk t).view.emb (ix2 p u) = ix2 (⟨t.val * 2000 + p.val, by omega⟩ : Fin 50000) u := by
    funext a
    apply Fin.ext
    match a with
    | ⟨0, _⟩ => show win0_9.index t (0 : Fin 2) * 2000 + 1 * p.val = t.val * 2000 + p.val; rw [e0]; omega
    | ⟨1, _⟩ => show win0_9.index t (1 : Fin 2) * 1 + 1 * u.val = u.val; rw [e1]; omega
  show X (ix2 p u) = G (((cfg0.win 9).blk t).view.emb (ix2 p u))
  rw [hemb]
  exact h p u _ rfl

/-- WHAT POINT t WRITES BACK to the hidden array is block t of `hiddenV`. -/
theorem flushed8_eq (c : Dev nD) (t : Fin cfg0.N) :
    (dats m 0 c).flushed 8 t = ((cfg0.win 8).blk t).view.read (Elt Ideal) (hiddenV m c) := by
  show (cfg0.win 8).cut (grid0.coords t) ((dats m 0 c).after 8 t) = _
  rw [after0_8]
  unfold out0_8
  rw [View.canon_unit_zero hz]
  simp only [View.ld_unit_zero (S := S2000x256) hz, View.ld_unit_zero (S := S2000x1) hz, View.ld_unit_zero (S := S256x128) hz,
    View.ld_unit_zero (S := S1x128) hz]
  exact block8_of_rows t _ _ (fun p q r hr => hidden_block_apply m c t p q r hr)

/-- WHAT POINT t WRITES BACK to the score column is block t of `scoreV`. -/
theorem flushed9_eq (c : Dev nD) (t : Fin cfg0.N) :
    (dats m 0 c).flushed 9 t = ((cfg0.win 9).blk t).view.read (Elt Ideal) (scoreV m c) := by
  show (cfg0.win 9).cut (grid0.coords t) ((dats m 0 c).after 9 t) = _
  rw [after0_9]
  unfold out0_9
  rw [View.canon_unit_zero hz]
  simp only [View.ld_unit_zero (S := S2000x256) hz, View.ld_unit_zero (S := S2000x1) hz, View.ld_unit_zero (S := S256x128) hz,
    View.ld_unit_zero (S := S1x128) hz, View.ld_unit_zero (S := S128x1) hz, View.ld_unit_zero (S := S1x1) hz]
  exact block9_of_rows t _ _ (fun p u r hr => score_block_apply m c t p u r hr)

/-! ## Every row is in some point's block -/

theorem mem_blk8 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v20_0).slice (win0_8.rect t)).set ↔ _
  rw [View.set_slice_whole, Rect.mem_set_unit]
  exact Iff.rfl

theorem mem_blk9 (t : Fin cfg0.N) (i : S50000x1.Idx) :
    i ∈ ((cfg0.win 9).blk t).view.set ↔ ∀ a : Fin 2, win0_9.index t a * S2000x1.size a ≤ (i a).val ∧ (i a).val < win0_9.index t a * S2000x1.size a + S2000x1.size a := by
  show i ∈ ((View.whole main_v20_1).slice (win0_9.rect t)).set ↔ _
  rw [View.set_slice_whole, Rect.mem_set_unit]
  exact Iff.rfl

/-- Row r of the hidden array is in the block of point r / 2000. -/
theorem cover8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  obtain ⟨t, htv⟩ : ∃ t : Fin cfg0.N, t.val = (i 0).val / 2000 := ⟨⟨(i 0).val / 2000, by omega⟩, rfl⟩
  refine ⟨t, flush0_8 t, ?_⟩
  obtain ⟨-, -, -, -, -, -, -, -, -, -, -, -, -, -, -, -, e0, e1, -⟩ := idx_facts t
  rw [mem_blk8]
  intro a
  match a with
  | ⟨0, _⟩ =>
    show win0_8.index t (0 : Fin 2) * 2000 ≤ (i 0).val ∧ (i 0).val < win0_8.index t (0 : Fin 2) * 2000 + 2000
    rw [e0, htv]; omega
  | ⟨1, _⟩ =>
    show win0_8.index t (1 : Fin 2) * 128 ≤ (i 1).val ∧ (i 1).val < win0_8.index t (1 : Fin 2) * 128 + 128
    rw [e1]; omega

/-- Row r of the score column is in the block of point r / 2000. -/
theorem cover9 (i : S50000x1.Idx) : ∃ t : Fin cfg0.N, (cfg0.win 9).flush t = true ∧ i ∈ ((cfg0.win 9).blk t).view.set := by
  have hi0 : (i 0).val < 50000 := (i 0).isLt
  have hi1 : (i 1).val < 1 := (i 1).isLt
  have hN : cfg0.N = 25 := N_0
  obtain ⟨t, htv⟩ : ∃ t : Fin cfg0.N, t.val = (i 0).val / 2000 := ⟨⟨(i 0).val / 2000, by omega⟩, rfl⟩
  refine ⟨t, flush0_9 t, ?_⟩
  obtain ⟨-, -, -, -, -, -, -, -, -, -, -, -, -, -, -, -, -, -, e0, e1⟩ := idx_facts t
  rw [mem_blk9]
  intro a
  match a with
  | ⟨0, _⟩ =>
    show win0_9.index t (0 : Fin 2) * 2000 ≤ (i 0).val ∧ (i 0).val < win0_9.index t (0 : Fin 2) * 2000 + 2000
    rw [e0, htv]; omega
  | ⟨1, _⟩ =>
    show win0_9.index t (1 : Fin 2) * 1 ≤ (i 1).val ∧ (i 1).val < win0_9.index t (1 : Fin 2) * 1 + 1
    rw [e1]; omega

/-- The hidden array after the run. -/
theorem final8 (c : Dev nD) : (dats m 0 c).arrAt 8 cfg0.N = hiddenV m c :=
  (dats m 0 c).arrAt_eq_of_cover 8 (hiddenV m c) (fun t _ => flushed8_eq m c t) cover8

/-- The score column after the run. -/
theorem final9 (c : Dev nD) : (dats m 0 c).arrAt 9 cfg0.N = scoreV m c :=
  (dats m 0 c).arrAt_eq_of_cover 9 (scoreV m c) (fun t _ => flushed9_eq m c t) cover9

end Cert.KernelIdeal.Nodes

end
-- ==== Proof.KernelArrays.lean ====
/-
  The arrays the region finds, as functions of the program's arguments: the four weight and feature arguments as
  launched; the neighbours' features summed into each node and each node's neighbour count, as the host lines before
  the region scatter-add them from the features and the edge list (`aggOf`, `cntOf`: stated once, never opened); the two
  biases reshaped to a row and to a single entry.
-/
import proofs.«102517_j69423851372893_1_alg».proof.Proof.KernelBlocks

set_option maxRecDepth 16384

noncomputable section

namespace Cert.KernelIdeal.Arrays

open Cert.KernelIdeal Cert.KernelIdeal.Gen Cert.KernelIdeal.Blocks
open Idealize.ShloMosaic Idealize.ShloMosaic.TcCoe Idealize.SL.Sem Idealize.ShloMosaic.StableHlo
open Idealize.ShloMosaic.ValueIdx Cert.NodeMath

/-- Each node's summed neighbour features: the feature rows gathered at every edge's source (a negative index wrapped
    once by the number of nodes) and scatter-added at the edge's destination, from zero. -/
def aggOf (x0 : (⟨S50000x256, .f32⟩ : BufTy).Contents (Elt Ideal)) (x1 : (⟨S2x600000, .i32⟩ : BufTy).Contents (Elt Ideal)) :
    (⟨S50000x256, .f32⟩ : BufTy).Contents (Elt Ideal) :=
  Host.scatterAdd scatter_S50000x256_S600000x1_S600000x256_1_0_0_1 (broadcastInDim S50000x256 ![] bcast_S_S50000x256 (constant (F := Ideal) S_ .f32 0x00000000#32)) (broadcastInDim S600000x1 ![0] bcast_S600000_S600000x1_0 (shapeCast _ (extractStridedSlice S1x600000 ![1, 0] x1 slices_S2x600000_S1x600000_1_0) shapeCasts_S1x600000_S600000)) (Host.gather gather_S50000x256_S600000x1_S600000x256_1_0_n_n_0_1_1256 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000))))

/-- Each node's neighbour count: a one scatter-added at every edge's destination, from zero. -/
def cntOf (x1 : (⟨S2x600000, .i32⟩ : BufTy).Contents (Elt Ideal)) : (⟨S50000x1, .f32⟩ : BufTy).Contents (Elt Ideal) :=
  Host.scatterAdd scatter_S50000x1_S600000x1_S600000x1_1_0_0_1 (broadcastInDim S50000x1 ![] bcast_S_S50000x1 (constant (F := Ideal) S_ .f32 0x00000000#32)) (broadcastInDim S600000x1 ![0] bcast_S600000_S600000x1_0 (shapeCast _ (extractStridedSlice S1x600000 ![1, 0] x1 slices_S2x600000_S1x600000_1_0) shapeCasts_S1x600000_S600000)) (broadcastInDim S600000x1 ![] bcast_S_S600000x1 (constant (F := Ideal) S_ .f32 0x3F800000#32))

variable (m : (ℓ : Loc nD τ sig) → Buf (Elt Ideal) ℓ)

theorem xArr_eq (c : Dev nD) : xArr m c = m ((c : Thread nD τ).loc main_arg0) := V_main_arg0 m c
theorem wlArr_eq (c : Dev nD) : wlArr m c = m ((c : Thread nD τ).loc main_arg2) := V_main_arg2 m c
theorem wrArr_eq (c : Dev nD) : wrArr m c = m ((c : Thread nD τ).loc main_arg4) := V_main_arg4 m c
theorem wfcArr_eq (c : Dev nD) : wfcArr m c = m ((c : Thread nD τ).loc main_arg5) := V_main_arg5 m c

theorem aggArr_eq (c : Dev nD) :
    aggArr m c = aggOf (m ((c : Thread nD τ).loc main_arg0)) (m ((c : Thread nD τ).loc main_arg1)) := by
  show StableHlo.after hostOps0 (fun b => m (c, b)) (Proc.devRef .tc main_v13) = _
  after_results
  rfl

theorem cntArr_eq (c : Dev nD) : cntArr m c = cntOf (m ((c : Thread nD τ).loc main_arg1)) := by
  show StableHlo.after hostOps0 (fun b => m (c, b)) (Proc.devRef .tc main_v17) = _
  after_results
  rfl

theorem blRow_eq (c : Dev nD) : blRow m c = shapeCast S1x128 (m ((c : Thread nD τ).loc main_arg3)) shapeCasts_S128_S1x128 := by
  show StableHlo.after hostOps0 (fun b => m (c, b)) (Proc.devRef .tc main_v18) = _
  after_results
  rfl

theorem bfcCell_eq (c : Dev nD) : bfcCell m c = shapeCast S1x1 (m ((c : Thread nD τ).loc main_arg6)) shapeCasts_S1_S1x1 := by
  show StableHlo.after hostOps0 (fun b => m (c, b)) (Proc.devRef .tc main_v19) = _
  after_results
  rfl

/-- Entry q of the staged bias row is entry q of the bias argument. -/
theorem blRow_apply (c : Dev nD) (q : Fin 128) :
    blRow m c (ix2 (0 : Fin 1) q) = (m ((c : Thread nD τ).loc main_arg3) : Arr1 128) (ix1 q) := by
  rw [blRow_eq]
  exact shapeCast_a_1a_apply _ _ 0 q

/-- The staged head bias entry is the head bias argument's entry. -/
theorem bfcCell_apply (c : Dev nD) :
    bfcCell m c (ix2 (0 : Fin 1) (0 : Fin 1)) = (m ((c : Thread nD τ).loc main_arg6) : Arr1 1) (ix1 (0 : Fin 1)) := by
  rw [bfcCell_eq]
  exact shapeCast_a_1a_apply _ _ 0 0

end Cert.KernelIdeal.Arrays

end
-- ==== Proof.KernelRun.lean ====
/-
  The kernel program's run, read: every weakly fair execution ends with the first result at `hiddenAll` and the second
  at the reshaped `scoreAll` of the program's arguments (with the scatter-added neighbour sums and counts of
  `Arrays.aggOf`, `Arrays.cntOf`), and the arguments unchanged.
  The first result is the hidden array the region leaves; the second is the score column the region leaves, reshaped
  from [50000, 1] to [50000] by the one host line after the region.
-/
import proofs.«102517_j69423851372893_1_alg».proof.Proof.KernelNodes
import proofs.«102517_j69423851372893_1_alg».proof.Proof.KernelArrays

set_option maxRecDepth 16384

noncomputable section

namespace Cert.KernelIdeal.Whole

open Cert.KernelIdeal Cert.KernelIdeal.Gen Cert.KernelIdeal.Blocks Cert.KernelIdeal.Nodes Cert.KernelIdeal.Arrays
open Idealize.ShloMosaic Idealize.ShloMosaic.TcCoe Idealize.SL.Sem Idealize.ShloMosaic.StableHlo
open Idealize.ShloMosaic.ValueIdx Cert.NodeMath
open Idealize.ShloMosaic.Pipeline (Dat)

variable (m : (ℓ : Loc nD τ sig) → Buf (Elt Ideal) ℓ) (ρ : Dev nD → PrngReg)

/-- The staged bias row, as a vector, is the bias argument. -/
theorem blVec_eq (c : Dev nD) : blVec m c = m ((c : Thread nD τ).loc main_arg3) := by
  funext i
  obtain ⟨q, rfl⟩ : ∃ q : Fin 128, i = ix1 q := ⟨i 0, eq_ix1 i⟩
  exact blRow_apply m c q

/-- The staged head bias, as a vector, is the head bias argument. -/
theorem bfcVec_eq (c : Dev nD) : bfcVec m c = m ((c : Thread nD τ).loc main_arg6) := by
  funext i
  obtain ⟨q, rfl⟩ : ∃ q : Fin 1, i = ix1 q := ⟨i 0, eq_ix1 i⟩
  obtain rfl : q = 0 := Subsingleton.elim _ _
  exact bfcCell_apply m c

/-- The hidden array as a function of the program's arguments. -/
abbrev hiddenM (c : Dev nD) : Arr2 50000 128 :=
  hiddenAll (m ((c : Thread nD τ).loc main_arg0))
    (aggOf (m ((c : Thread nD τ).loc main_arg0)) (m ((c : Thread nD τ).loc main_arg1)))
    (cntOf (m ((c : Thread nD τ).loc main_arg1)))
    (m ((c : Thread nD τ).loc main_arg2)) (m ((c : Thread nD τ).loc main_arg4)) (m ((c : Thread nD τ).loc main_arg3))

/-- The score column as a function of the program's arguments. -/
abbrev scoreM (c : Dev nD) : Arr2 50000 1 :=
  scoreAll (hiddenM m c) (m ((c : Thread nD τ).loc main_arg5)) (m ((c : Thread nD τ).loc main_arg6))

theorem hiddenV_eq (c : Dev nD) : hiddenV m c = hiddenM m c := by
  show hiddenAll (xArr m c) (aggArr m c) (cntArr m c) (wlArr m c) (wrArr m c) (blVec m c) = _
  rw [xArr_eq, aggArr_eq, cntArr_eq, wlArr_eq, wrArr_eq, blVec_eq]

theorem scoreV_eq (c : Dev nD) : scoreV m c = scoreM m c := by
  show scoreAll (hiddenV m c) (wfcArr m c) (bfcVec m c) = _
  rw [hiddenV_eq, wfcArr_eq, bfcVec_eq]

/-- The host line after the region: the second result is the score column reshaped to a vector. -/
theorem tail_eq (c : Dev nD) :
    Pipeline.afterTail₀ cfgs (dats m) 0 (V0 m) [hostOps1] c main_v21
      = shapeCast S50000 (scoreM m c) shapeCasts_S50000x1_S50000 := by
  unfold Pipeline.afterTail₀
  show StableHlo.after hostOps1 _ (Proc.devRef .tc main_v21) = _
  after_results
  have hw : Pipeline.withArrays (cfgs 0).spec c (V0 m c) (fun w => (dats m 0 c).arrAt w (cfgs 0).N) (Proc.devRef .tc main_v20_1)
      = scoreM m c :=
    (Pipeline.withArrays_arr spec0 launch0.win.arr_inj c _ _ 9).trans ((final9 m c).trans (scoreV_eq m c))
  exact funext fun i => congrFun (congrArg (fun X => shapeCast S50000 X shapeCasts_S50000x1_S50000) hw) i

/-- Every weakly fair execution of the kernel program terminates with the first result at `hiddenM`, the second at the
    reshaped `scoreM`, and the arguments as launched. -/
theorem run : θ_run defs (onTc (τ := τ) (main (F := Ideal))) ⟨m, fun _ => 0, ρ⟩ fun r => ∀ c : Dev nD,
      r.2.mem ((c.tc : Thread nD τ).loc main_v20_0) = hiddenM m c
      ∧ r.2.mem ((c.tc : Thread nD τ).loc main_v21) = shapeCast S50000 (scoreM m c) shapeCasts_S50000x1_S50000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 8).trans ((final8 m c).trans (hiddenV_eq m c)),
      ((h c).2 main_v21 (Pipeline.mem_restRefs_of main_v21 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Whole

end
-- ==== Proof.RefNodes.lean ====
/-
  The reference's two results as `NodeMath.hiddenAll` and `NodeMath.scoreAll` of its arguments and of its own summed
  neighbour features and neighbour counts (the scatter-added arrays, which are never opened here).
  Each stage is read at an index by the generated lemmas; the indices they compose are named by coordinates; then the
  hidden entry is `hiddenAt` with the bias added between the two products, and the score entry is the logistic spelt
  as a quotient.
-/
import proofs.«102517_j69423851372893_1_alg».proof.Proof.Gen.ReferenceIdeal.Read
import proofs.«102517_j69423851372893_1_alg».proof.Proof.NodeMath

noncomputable section

namespace Cert.ReferenceIdeal.Nodes

open Cert.ReferenceIdeal Cert.ReferenceIdeal.Gen Cert.ReferenceIdeal.Read Idealize.ShloMosaic Idealize.ShloMosaic.ValueIdx Cert.NodeMath

/-! ## The composed indices, by coordinates (r a node, j a hidden column, k a contracted index) -/

theorem lidx22 (r : Fin 50000) (j : Fin 128) (k : Fin 256) : lidx_main_v22 (ix2 r j) k = ix2 r k :=
  funext fun a => Fin.ext (by match a with | ⟨0, _⟩ => rfl | ⟨1, _⟩ => rfl)
theorem ridx22 (r : Fin 50000) (j : Fin 128) (k : Fin 256) : ridx_main_v22 (ix2 r j) k = ix2 k j :=
  funext fun a => Fin.ext (by match a with | ⟨0, _⟩ => rfl | ⟨1, _⟩ => rfl)
theorem lidx26 (r : Fin 50000) (j : Fin 128) (k : Fin 256) : lidx_main_v26 (ix2 r j) k = ix2 r k :=
  funext fun a => Fin.ext (by match a with | ⟨0, _⟩ => rfl | ⟨1, _⟩ => rfl)
theorem ridx26 (r : Fin 50000) (j : Fin 128) (k : Fin 256) : ridx_main_v26 (ix2 r j) k = ix2 k j :=
  funext fun a => Fin.ext (by match a with | ⟨0, _⟩ => rfl | ⟨1, _⟩ => rfl)
/-- The count under entry (r, k) of the feature array is at (r, 0). -/
theorem idx20 (r : Fin 50000) (k : Fin 256) : idx_main_v20 (ix2 r k) = ix2 r (0 : Fin 1) :=
  funext fun a => Fin.ext (by match a with | ⟨0, _⟩ => rfl | ⟨1, _⟩ => rfl)
/-- The bias under entry (r, j) of the hidden array is at j. -/
theorem idx2324 (r : Fin 50000) (j : Fin 128) : idx_main_v23 (idx_main_v24 (ix2 r j)) = ix1 j :=
  funext fun a => Fin.ext (by match a with | ⟨0, _⟩ => rfl)
theorem lidx28 (r : Fin 50000) (u : Fin 1) (k : Fin 128) : lidx_main_v28 (ix2 r u) k = ix2 r k :=
  funext fun a => Fin.ext (by match a with | ⟨0, _⟩ => rfl | ⟨1, _⟩ => rfl)
theorem ridx28 (r : Fin 50000) (k : Fin 128) : ridx_main_v28 (ix2 r (0 : Fin 1)) k = ix2 k (0 : Fin 1) :=
  funext fun a => Fin.ext (by match a with | ⟨0, _⟩ => rfl | ⟨1, _⟩ => rfl)
theorem idx2930 (r : Fin 50000) (u : Fin 1) : idx_main_v29 (idx_main_v30 (ix2 r u)) = ix1 (0 : Fin 1) :=
  funext fun a => Fin.ext (by match a with | ⟨0, _⟩ => rfl)

/-! ## The two results -/

/-- The neighbours' mean at (r, k): the scatter-added sum over the scatter-added count clamped below by one. -/
theorem mean_apply (x0 : (⟨S50000x256, .f32⟩ : BufTy).Contents (Elt Ideal)) (x1 : (⟨S2x600000, .i32⟩ : BufTy).Contents (Elt Ideal))
    (r : Fin 50000) (k : Fin 256) :
    val_main_v21 (F := Ideal) x0 x1 (ix2 r k)
      = meanAt (fun k => val_main_v13 (F := Ideal) x0 x1 (ix2 r k)) (val_main_v17 (F := Ideal) x1 (ix2 r (0 : Fin 1))) k := by
  rw [val_main_v21_apply, val_main_v20_apply, idx20, val_main_v19_apply, val_main_v18_apply, val_main_cst_3_apply]
  rfl

/-- The hidden array: `hiddenAll` of the features, the scatter-added neighbour sums and counts, the weights and the bias. -/
theorem hidden_eq (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) :
    val_main_v27 (F := Ideal) x0 x1 x2 x3 x4
      = hiddenAll x0 (val_main_v13 (F := Ideal) x0 x1) (val_main_v17 (F := Ideal) x1) x2 x4 x3 := by
  funext i
  obtain ⟨r, j, rfl⟩ : ∃ (r : Fin 50000) (j : Fin 128), i = ix2 r j := ⟨i 0, i 1, eq_ix2 i⟩
  rw [val_main_v27_apply, val_main_v25_apply, val_main_v22_apply, val_main_v26_apply, val_main_v24_apply, val_main_v23_apply,
    idx2324, hiddenAll_apply]
  simp only [lidx22, ridx22, lidx26, ridx26, mean_apply, Ideal.addf_def]
  exact hiddenAt_bias_between (fun k => val_main_v13 (F := Ideal) x0 x1 (ix2 r k)) (fun k => x0 (ix2 r k))
    (val_main_v17 (F := Ideal) x1 (ix2 r (0 : Fin 1))) (fun k => x2 (ix2 k j)) (fun k => x4 (ix2 k j)) (x3 (ix1 j))

/-- The score column before its last reshape: `scoreAll` of the hidden array, the head's weights and the head's bias. -/
theorem score_eq (x0 : (⟨S50000x256, .f32⟩ : BufTy).Contents (Elt Ideal)) (x1 : (⟨S2x600000, .i32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128x1, .f32⟩ : BufTy).Contents (Elt Ideal))
    (x6 : (⟨S1, .f32⟩ : BufTy).Contents (Elt Ideal)) :
    val_main_v37 (F := Ideal) x0 x1 x2 x3 x4 x5 x6 = scoreAll (val_main_v27 (F := Ideal) x0 x1 x2 x3 x4) x5 x6 := by
  funext i
  obtain ⟨r, u, rfl⟩ : ∃ (r : Fin 50000) (u : Fin 1), i = ix2 r u := ⟨i 0, i 1, eq_ix2 i⟩
  obtain rfl : u = 0 := Subsingleton.elim _ _
  rw [val_main_v37_apply, val_main_v36_apply, val_main_cst_5_apply, val_main_v35_apply, val_main_v34_apply, val_main_cst_4_apply,
    val_main_v33_apply, val_main_v32_apply, val_main_v31_apply, val_main_v28_apply, val_main_v30_apply, val_main_v29_apply,
    idx2930, scoreAll_apply]
  simp only [lidx28, ridx28, Ideal.addf_def, Ideal.hostDivf_def, Ideal.hostNegf_def, Ideal.negf_def, Ideal.hostUnary_exp_def, Ideal.ofBits_def]
  exact scoreAt_spelt (fun j => val_main_v27 (F := Ideal) x0 x1 x2 x3 x4 (ix2 r j)) (fun j => x5 (ix2 j (0 : Fin 1))) (x6 (ix1 (0 : Fin 1)))

end Cert.ReferenceIdeal.Nodes

end
-- ==== Proof.lean ====
/- The proof of `Cert.Claim`: the kernel (a mean-aggregating graph layer with a sigmoid head, tiled over 2000 nodes a
   grid point) against its plain reference, over the extended reals.
   Both programs scatter-add the neighbours' features and the neighbour counts with the same host operations; after
   that, at every node, both compute  h = Σ (agg / max cnt 1)·W_l + Σ x·W_r + b_l  and  pred = logistic (Σ h·W_fc + b_fc):
   the kernel adds the bias last and applies the logistic as one operation, the reference adds the bias between the two
   products and spells the logistic as 1 / (1 + e^(-z)). Addition on the extended reals is commutative and associative
   and the literal 1.0 is 1, so the two are one function (Proof/NodeMath.lean); no input needs to be finite for it.
   Proof/KernelRun.lean reads the kernel's run as that function of the arguments, Proof/RefNodes.lean the reference's
   generated run; here the two scatter-added arrays are identified across the two programs and the claims assembled.
   The three frames are the generated ones (the reference's is its generated run with the results dropped), and the
   idealization rewrote nothing. -/
import proofs.«102517_j69423851372893_1_alg».proof.Defs
import proofs.«102517_j69423851372893_1_alg».proof.Proof.Gen.Kernel
import proofs.«102517_j69423851372893_1_alg».proof.Proof.Gen.Kernel.Skeleton
import proofs.«102517_j69423851372893_1_alg».proof.Proof.Gen.Kernel.Launch
import proofs.«102517_j69423851372893_1_alg».proof.Proof.Gen.Kernel.Points
import proofs.«102517_j69423851372893_1_alg».proof.Proof.Gen.Kernel.Frame
import proofs.«102517_j69423851372893_1_alg».proof.Proof.Gen.KernelIdeal
import proofs.«102517_j69423851372893_1_alg».proof.Proof.Gen.KernelIdeal.Skeleton
import proofs.«102517_j69423851372893_1_alg».proof.Proof.Gen.KernelIdeal.Launch
import proofs.«102517_j69423851372893_1_alg».proof.Proof.Gen.KernelIdeal.Points
import proofs.«102517_j69423851372893_1_alg».proof.Proof.Gen.KernelIdeal.Frame
import proofs.«102517_j69423851372893_1_alg».proof.Proof.Gen.ReferenceIdeal
import proofs.«102517_j69423851372893_1_alg».proof.Proof.Gen.Pre_finite_inputs
import proofs.«102517_j69423851372893_1_alg».proof.Proof.Gen.ReferenceIdeal.Run
import proofs.«102517_j69423851372893_1_alg».proof.Proof.Gen.ReferenceIdeal.Read
import proofs.«102517_j69423851372893_1_alg».proof.Proof.KernelRun
import proofs.«102517_j69423851372893_1_alg».proof.Proof.RefNodes
import Idealize.ShloMosaic.Adequacy
import Idealize.ShloMosaic.Init

set_option maxRecDepth 16384

noncomputable section

namespace Cert.Proof

open Idealize.ShloMosaic Idealize.SL.Sem Cert.NodeMath

/-- The kernel program's scatter-added neighbour sums are the reference's: the same host operations of the same
    operands, printed once in each program. -/
theorem agg_same (x0 : (⟨Cert.KernelIdeal.S50000x256, .f32⟩ : BufTy).Contents (Elt Ideal))
    (x1 : (⟨Cert.KernelIdeal.S2x600000, .i32⟩ : BufTy).Contents (Elt Ideal)) :
    Cert.KernelIdeal.Arrays.aggOf x0 x1 = Cert.ReferenceIdeal.Read.val_main_v13 (F := Ideal) x0 x1 := rfl

/-- Likewise the scatter-added neighbour counts. -/
theorem cnt_same (x1 : (⟨Cert.KernelIdeal.S2x600000, .i32⟩ : BufTy).Contents (Elt Ideal)) :
    Cert.KernelIdeal.Arrays.cntOf x1 = Cert.ReferenceIdeal.Read.val_main_v17 (F := Ideal) x1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the hidden array at `hiddenAll` and the scores at the reshaped `scoreAll` of the same
    arguments and the same scatter-added arrays. -/
theorem algebraic : Cert.algebraic_KernelIdeal_ReferenceIdeal := by
  intro m ρ m' ρ' _ hagree
  refine ⟨fun c => Cert.KernelIdeal.Whole.hiddenM m c,
    fun c => shapeCast Cert.KernelIdeal.S50000 (Cert.KernelIdeal.Whole.scoreM m c) Cert.KernelIdeal.Facts₀.shapeCasts_S50000x1_S50000,
    Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  have hh : Cert.ReferenceIdeal.Read.val_main_v27 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      = Cert.KernelIdeal.Whole.hiddenM m c := by
    rw [Cert.ReferenceIdeal.Nodes.hidden_eq, a0, a1, a2, a3, a4]
    show hiddenAll _ _ _ _ _ _ = hiddenAll _ (Cert.KernelIdeal.Arrays.aggOf _ _) (Cert.KernelIdeal.Arrays.cntOf _) _ _ _
    rw [agg_same, cnt_same]
  refine ⟨(h c).1.trans ((Cert.ReferenceIdeal.Read.val_main_v27_eq _ _ _ _ _).trans hh), (h c).2.1.trans ?_, (h c).2.2⟩
  refine (Cert.ReferenceIdeal.Read.val_main_v38_eq _ _ _ _ _ _ _).trans ?_
  unfold Cert.ReferenceIdeal.Read.val_main_v38
  rw [Cert.ReferenceIdeal.Nodes.score_eq, hh, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
